-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x256x256 : Shape := ⟨4, ![32, 8, 256, 256]⟩
abbrev S65536 : Shape := ⟨1, ![65536]⟩
abbrev S_ : Shape := ⟨0, ![]⟩

class Facts : Prop where
  bcast_S_S32x8x256x256 : S_.BroadcastsInDim S32x8x256x256 (![] : Fin 0 → Fin S32x8x256x256.rank)
  reducesTo_S32x8x256x256_S_d0_1_2_3 : S32x8x256x256.ReducesTo [0, 1, 2, 3] S_
  h_S_ : 0 < S_.numel
  bcast_S_S65536 : S_.BroadcastsInDim S65536 (![] : Fin 0 → Fin S65536.rank)
  reducesTo_S65536_S_d0 : S65536.ReducesTo [0] S_

variable [Facts]

def fn {F : FTy → Type} [FloatOps F] (main_arg0 : FVec F S32x8x256x256 .f32) (main_arg1 : FVec F S32x8x256x256 .f32) (main_arg2 : FVec F S65536 .f32) : IVec S_ 1 :=
  let main_v0 : FVec F S32x8x256x256 .f32 := Host.absf main_arg0
  let main_cst : FVec F S_ .f32 := constant S_ .f32 0x7F800000#32
  let main_v1 : FVec F S32x8x256x256 .f32 := broadcastInDim S32x8x256x256 ![] bcast_S_S32x8x256x256 main_cst
  let main_v2 : IVec S32x8x256x256 1 := cmpf .olt main_v0 main_v1
  let main_c : IVec S_ 1 := constantI S_ 1 1#1
  let main_v3 : IVec S_ 1 := (fun x v => Host.reduce IntOp.andi x v reducesTo_S32x8x256x256_S_d0_1_2_3 h_S_) main_v2 main_c
  let main_v4 : FVec F S32x8x256x256 .f32 := Host.absf main_arg1
  let main_cst_0 : FVec F S_ .f32 := constant S_ .f32 0x7F800000#32
  let main_v5 : FVec F S32x8x256x256 .f32 := broadcastInDim S32x8x256x256 ![] bcast_S_S32x8x256x256 main_cst_0
  let main_v6 : IVec S32x8x256x256 1 := cmpf .olt main_v4 main_v5
  let main_c_1 : IVec S_ 1 := constantI S_ 1 1#1
  let main_v7 : IVec S_ 1 := (fun x v => Host.reduce IntOp.andi x v reducesTo_S32x8x256x256_S_d0_1_2_3 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S32x8x256x256 : Shape := ⟨4, ![32, 8, 256, 256]⟩
abbrev S65536 : Shape := ⟨1, ![65536]⟩
abbrev S256x256x256 : Shape := ⟨3, ![256, 256, 256]⟩
abbrev S256x256 : Shape := ⟨2, ![256, 256]⟩
abbrev S16x256x256 : Shape := ⟨3, ![16, 256, 256]⟩
abbrev S1x256x256 : Shape := ⟨3, ![1, 256, 256]⟩

abbrev nBuf : Space → Nat
  | .hbm => 10
  | .vmem => 9
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S65536, .f32⟩
  | .hbm, ⟨3, _⟩ => ⟨S256x256x256, .f32⟩
  | .hbm, ⟨4, _⟩ => ⟨S256x256x256, .f32⟩
  | .hbm, ⟨5, _⟩ => ⟨S256x256, .f32⟩
  | .hbm, ⟨6, _⟩ => ⟨S256x256x256, .f32⟩
  | .hbm, ⟨7, _⟩ => ⟨S256x256x256, .f32⟩
  | .hbm, ⟨8, _⟩ => ⟨S32x8x256x256, .f32⟩
  | .hbm, ⟨9, _⟩ => ⟨S32x8x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S256x256, .f32⟩
  | .local _ .vmem, ⟨5, _⟩ => ⟨S16x256x256, .f32⟩
  | .local _ .vmem, ⟨6, _⟩ => ⟨S16x256x256, .f32⟩
  | .local _ .vmem, ⟨7, _⟩ => ⟨S16x256x256, .f32⟩
  | .local _ .vmem, ⟨8, _⟩ => ⟨S16x256x256, .f32⟩
  | _, _ => ⟨S32x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3_0 : Ref sig .tc := ⟨.hbm, 6, rfl⟩
abbrev main_call0_v3_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32x8x256x256_S256x256x256 : S32x8x256x256.ShapeCasts S256x256x256
  shapeCasts_S65536_S256x256 : S65536.ShapeCasts S256x256
  shapeCasts_S256x256x256_S32x8x256x256 : S256x256x256.ShapeCasts S32x8x256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x256_S1x256x256 : S256x256.ShapeCasts S1x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  broadcasts_S1x256x256_S16x256x256 : S1x256x256.Broadcasts S16x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S256x256x256.size a
  hwx0_0 : ∀ i : grid0.Coords, EltTy.bits .f32 = 32 ∨ (Rect.block (s := S256x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S256x256x256.size a
  hwx0_1 : ∀ i : grid0.Coords, EltTy.bits .f32 = 32 ∨ (Rect.block (s := S256x256x256) S16x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x256.size a ≤ S256x256x256.size a
  hwx0_3 : ∀ i : grid0.Coords, EltTy.bits .f32 = 32 ∨ (Rect.block (s := S256x256x256) S16x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256x256.size a ≤ S256x256x256.size a
  hwx0_4 : ∀ i : grid0.Coords, EltTy.bits .f32 = 32 ∨ (Rect.block (s := S256x256x256) S16x256x256.size (cc0_transform_4 i) (hinb0_4 i)).WholeWords (EltTy.packing .f32)

variable [Facts₀]

abbrev win0_0 : Pipeline.Window sig grid0 :=
  Pipeline.Window.ofSpec (Memref.whole main_call0_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3_0) S16x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3_1) S16x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8x256x256 : Shape := ⟨4, ![32, 8, 256, 256]⟩
abbrev S65536 : Shape := ⟨1, ![65536]⟩
abbrev S256x256 : Shape := ⟨2, ![256, 256]⟩
abbrev S1x1x256x256 : Shape := ⟨4, ![1, 1, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S32x8x256x256, .f32⟩
  | .hbm, ⟨1, _⟩ => ⟨S32x8x256x256, .f32⟩
  | .hbm, ⟨2, _⟩ => ⟨S65536, .f32⟩
  | .hbm, ⟨3, _⟩ => ⟨S65536, .f32⟩
  | .hbm, ⟨4, _⟩ => ⟨S256x256, .f32⟩
  | .hbm, ⟨5, _⟩ => ⟨S1x1x256x256, .f32⟩
  | .hbm, ⟨6, _⟩ => ⟨S32x8x256x256, .f32⟩
  | .hbm, ⟨7, _⟩ => ⟨S32x8x256x256, .f32⟩
  | .hbm, ⟨8, _⟩ => ⟨S1x1x256x256, .f32⟩
  | .hbm, ⟨9, _⟩ => ⟨S32x8x256x256, .f32⟩
  | .hbm, ⟨10, _⟩ => ⟨S32x8x256x256, .f32⟩
  | _, _ => ⟨S32x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S65536_S256x256 : S65536.ShapeCasts S256x256
  bcast_S256x256_S1x1x256x256_2_3 : S256x256.BroadcastsInDim S1x1x256x256 (![2, 3] : Fin 2 → Fin S1x1x256x256.rank)
  bcast_S1x1x256x256_S32x8x256x256_0_1_2_3 : S1x1x256x256.BroadcastsInDim S32x8x256x256 (![0, 1, 2, 3] : Fin 4 → Fin S32x8x256x256.rank)

variable [Facts₀]

class Facts : Prop extends Facts₀ where

variable [Facts]
-- ==== Proof.Payload.lean ====
/-
  The arithmetic of the kernel body at ONE element. The body loads the (256, 256) tile of betas, exponentiates it,
  views the result as a (1, 256, 256) vector, spreads it over the 16 rows of the block and multiplies the loaded
  (16, 256, 256) block of x by it. So the stored value at block index (r, h, w) is x(r, h, w) · exp(beta(h, w)):
  the row r does not enter the scale. Stated for every float instance; nothing here is special to the reals.
-/
import proofs.«155299_j72559177499246_1_alg».proof.Proof.Gen.KernelIdeal.Skeleton
import Idealize.ShloMosaic.Lib.Pipeline.Value

noncomputable section

namespace Cert.KernelIdeal.Scale

open Idealize.ShloMosaic Cert.KernelIdeal Cert.KernelIdeal.Gen

variable {F : FTy → Type} [FloatOps F]

/-- The (h, w) part of a block index (r, h, w): where the scale tile is read. -/
abbrev plane (j : S16x256x256.Idx) : S256x256.Idx := fun a => match a with
  | ⟨0, _⟩ => ⟨(j 1).val, (j 1).isLt⟩
  | ⟨1, _⟩ => ⟨(j 2).val, (j 2).isLt⟩

/-- The (h, w) part of an index (0, h, w) of the tile seen with a leading unit axis. -/
abbrev dropLead (k : S1x256x256.Idx) : S256x256.Idx := fun a => match a with
  | ⟨0, _⟩ => ⟨(k 1).val, (k 1).isLt⟩
  | ⟨1, _⟩ => ⟨(k 2).val, (k 2).isLt⟩

/-- The index (0, h, w) of the unit-axis tile under a block index (r, h, w). -/
abbrev underRow (j : S16x256x256.Idx) : S1x256x256.Idx := fun a => match a with
  | ⟨0, _⟩ => ⟨0, Nat.one_pos⟩
  | ⟨1, _⟩ => ⟨(j 1).val, (j 1).isLt⟩
  | ⟨2, _⟩ => ⟨(j 2).val, (j 2).isLt⟩

/-- The exponentiated tile with its added unit axis, at (0, h, w), is exp of the loaded tile at (h, w): the two
    casts keep the row-major position, and the position of (0, h, w) among 1·256·256 is that of (h, w) among 256·256. -/
theorem expTile_apply (b : Vec F S256x256 .f32) (k : S1x256x256.Idx) :
    k0_pay1 b k = FloatOps.exp (b (dropLead k)) := by
  unfold k0_pay1
  show shapeCast S1x256x256 (exp (shapeCast S256x256 b shapeCasts_S256x256_S256x256)) shapeCasts_S256x256_S1x256x256 k = _
  rw [shapeCast_self]
  rw [shapeCast_apply (exp b) shapeCasts_S256x256_S1x256x256 k (dropLead k) (by
    rewrite [Shape.rowMajor_val_two, Shape.rowMajor_val_three]
    have h0 : (k 0).val < 1 := (k 0).isLt
    show (k 1).val * 256 + (k 2).val = ((k 0).val * 256 + (k 1).val) * 256 + (k 2).val
    omega)]
  rfl

/-- The spread of that tile over the block's rows reads, at (r, h, w), the tile at (0, h, w). -/
theorem spread_apply (b : Vec F S256x256 .f32) (j : S16x256x256.Idx) :
    broadcastTo S16x256x256 (k0_pay1 b) broadcasts_S1x256x256_S16x256x256 j = FloatOps.exp (b (plane j)) := by
  rw [broadcastTo_apply (k0_pay1 b) broadcasts_S1x256x256_S16x256x256 j (underRow j) (fun a => match a with
    | ⟨0, _⟩ => by show 0 = if (1 : Nat) = 1 then 0 else (j 0).val; rw [if_pos rfl]
    | ⟨1, _⟩ => by show (j 1).val = if (256 : Nat) = 1 then 0 else (j 1).val; rw [if_neg (by decide)]
    | ⟨2, _⟩ => by show (j 2).val = if (256 : Nat) = 1 then 0 else (j 2).val; rw [if_neg (by decide)])]
  rw [expTile_apply]

/-- What the body stores for the real part, at (r, h, w): x(r, h, w) · exp(beta(h, w)). -/
theorem storedRe_apply (b : Vec F S256x256 .f32) (x : Vec F S16x256x256 .f32) (j : S16x256x256.Idx) :
    k0_pay2 b x j = FloatOps.mulf (x j) (FloatOps.exp (b (plane j))) := by
  unfold k0_pay2
  show FloatOps.mulf (shapeCast S16x256x256 x shapeCasts_S16x256x256_S16x256x256 j)
    (broadcastTo S16x256x256 (k0_pay1 b) broadcasts_S1x256x256_S16x256x256 j) = _
  rw [shapeCast_self, spread_apply]

/-- What the body stores for the imaginary part, at (r, h, w): the same scale on the other block. -/
theorem storedIm_apply (b : Vec F S256x256 .f32) (x : Vec F S16x256x256 .f32) (j : S16x256x256.Idx) :
    k0_pay3 b x j = FloatOps.mulf (x j) (FloatOps.exp (b (plane j))) := by
  unfold k0_pay3
  show FloatOps.mulf (shapeCast S16x256x256 x shapeCasts_S16x256x256_S16x256x256 j)
    (broadcastTo S16x256x256 (k0_pay1 b) broadcasts_S1x256x256_S16x256x256 j) = _
  rw [shapeCast_self, spread_apply]

end Cert.KernelIdeal.Scale

end
-- ==== Proof.Blocks.lean ====
/-
  From blocks to arrays. Inside the region x is seen folded to (256, 256, 256) (the leading axes 32 and 8 merged) and beta
  as a (256, 256) tile. The grid has 16 points; point t handles rows 16·t … 16·t + 15 of the folded x for both parts,
  always against the whole beta tile, and writes the corresponding rows of the two folded outputs. Since every stored
  element is x(n, h, w) · exp(beta(h, w)) at the element's own position (n, h, w), each written block is a block of ONE
  function of the folded inputs, and the 16 blocks tile each output: after the run each folded output is that function.
-/
import proofs.«155299_j72559177499246_1_alg».proof.Proof.Gen.KernelIdeal.Frame
import proofs.«155299_j72559177499246_1_alg».proof.Proof.Payload
import Idealize.ShloMosaic.Lib.Pipeline.Value

set_option maxRecDepth 16384

noncomputable section

namespace Cert.KernelIdeal.Scale

open Idealize.ShloMosaic Idealize.ShloMosaic.TcCoe Idealize.SL.Sem Cert.KernelIdeal Cert.KernelIdeal.Gen
open Idealize.ShloMosaic.Pipeline (Dat Cfg Window)

variable {F : FTy → Type} [FloatOps F]
variable (m : (ℓ : Loc nD τ sig) → Buf (Elt F) ℓ)

/-- The (h, w) part of an index (n, h, w) of a folded array. -/
abbrev planeOf (i : S256x256x256.Idx) : S256x256.Idx := fun a => match a with
  | ⟨0, _⟩ => ⟨(i 1).val, (i 1).isLt⟩
  | ⟨1, _⟩ => ⟨(i 2).val, (i 2).isLt⟩

/-- The folded result as one function of the folded input X and the beta tile B: X(n, h, w) · exp(B(h, w)). -/
abbrev scaled (X : S256x256x256.Idx → Elt F .f32) (B : S256x256.Idx → Elt F .f32) : S256x256x256.Idx → Elt F .f32 :=
  fun i => FloatOps.mulf (X i) (FloatOps.exp (B (planeOf i)))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the 16 points: both x windows and both output windows are at block (t, 0, 0), the beta window
    at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- WHAT POINT t WRITES BACK for the Re part is block t of the scaled folded array: the stored value at (r, h, w) of the
    block is x at the block's (r, h, w) times exp(beta(h, w)), the x block sits where the output block sits, and the beta
    tile is the whole (256, 256) array. -/
theorem flushedRe_eq (c : Dev nD) (t : Fin cfg0.N) :
    (dats m 0 c).flushed 3 t = ((cfg0.win 3).blk t).view.read (Elt F) (scaled (V m c main_call0_v0) (V m c main_call0_v2)) := by
  show (cfg0.win 3).cut (grid0.coords t) ((dats m 0 c).after 3 t) = _
  rw [after0_3]
  unfold out0_3
  rw [View.canon_unit_zero hz3]
  simp only [View.ld_unit_zero (S := S16x256x256) hz3, View.ld_unit_zero (S := S256x256) hz2]
  obtain ⟨e00, e01, e02, e10, e11, e12, e20, e21, e30, e31, e32, e40, e41, e42⟩ := idx_facts t
  funext j
  show k0_pay2 (iblk m c 2 t) (iblk m c 0 t) j
    = FloatOps.mulf (V m c main_call0_v0 (((cfg0.win 3).blk t).view.emb j))
        (FloatOps.exp (V m c main_call0_v2 (planeOf (((cfg0.win 3).blk t).view.emb j))))
  refine (storedRe_apply (iblk m c 2 t) (iblk m c 0 t) j).trans ?_
  show FloatOps.mulf (V m c main_call0_v0 (((cfg0.win 0).blk t).view.emb j))
        (FloatOps.exp (V m c main_call0_v2 (((cfg0.win 2).blk t).view.emb (plane j)))) = _
  have hx : ((cfg0.win 0).blk t).view.emb j = ((cfg0.win 3).blk t).view.emb j := by
    funext a; apply Fin.ext
    match a with
    | ⟨0, _⟩ => show win0_0.index t (0 : Fin 3) * 16 + 1 * (j 0).val = win0_3.index t (0 : Fin 3) * 16 + 1 * (j 0).val; omega
    | ⟨1, _⟩ => show win0_0.index t (1 : Fin 3) * 256 + 1 * (j 1).val = win0_3.index t (1 : Fin 3) * 256 + 1 * (j 1).val; omega
    | ⟨2, _⟩ => show win0_0.index t (2 : Fin 3) * 256 + 1 * (j 2).val = win0_3.index t (2 : Fin 3) * 256 + 1 * (j 2).val; omega
  have hb : ((cfg0.win 2).blk t).view.emb (plane j) = planeOf (((cfg0.win 3).blk t).view.emb j) := by
    funext a; apply Fin.ext
    match a with
    | ⟨0, _⟩ => show win0_2.index t (0 : Fin 2) * 256 + 1 * (j 1).val = win0_3.index t (1 : Fin 3) * 256 + 1 * (j 1).val; omega
    | ⟨1, _⟩ => show win0_2.index t (1 : Fin 2) * 256 + 1 * (j 2).val = win0_3.index t (2 : Fin 3) * 256 + 1 * (j 2).val; omega
  rw [hx, hb]

/-- An index of the folded Re output is in point t's block iff each coordinate is in the block's range on its axis. -/
theorem mem_blkRe (t : Fin cfg0.N) (i : S256x256x256.Idx) :
    i ∈ ((cfg0.win 3).blk t).view.set ↔ ∀ a : Fin 3, win0_3.index t a * S16x256x256.size a ≤ (i a).val ∧ (i a).val < win0_3.index t a * S16x256x256.size a + S16x256x256.size a := by
  show i ∈ ((View.whole main_call0_v3_0).slice (win0_3.rect t)).set ↔ _
  rw [View.set_slice_whole, Rect.mem_set_unit]
  exact Iff.rfl

/-- Every index (n, h, w) of the folded Re output lies in the block of point n / 16, and every point writes back. -/
theorem coverRe (i : S256x256x256.Idx) :
    ∃ t : Fin cfg0.N, (cfg0.win 3).flush t = true ∧ i ∈ ((cfg0.win 3).blk t).view.set := by
  have hi0 : (i 0).val < 256 := (i 0).isLt
  have hi1 : (i 1).val < 256 := (i 1).isLt
  have hi2 : (i 2).val < 256 := (i 2).isLt
  have hN : grid0.N = 16 := N_0
  have ht : (i 0).val / 16 < grid0.N := by omega
  obtain ⟨e00, e01, e02, e10, e11, e12, e20, e21, e30, e31, e32, e40, e41, e42⟩ := idx_facts ⟨(i 0).val / 16, ht⟩
  refine ⟨⟨(i 0).val / 16, ht⟩, flush0_3 _, ?_⟩
  rw [mem_blkRe]
  intro a
  match a with
  | ⟨0, _⟩ =>
    show win0_3.index ⟨(i 0).val / 16, ht⟩ (0 : Fin 3) * 16 ≤ (i 0).val ∧ (i 0).val < win0_3.index ⟨(i 0).val / 16, ht⟩ (0 : Fin 3) * 16 + 16
    have hv : (⟨(i 0).val / 16, ht⟩ : Fin grid0.N).val = (i 0).val / 16 := rfl
    omega
  | ⟨1, _⟩ =>
    show win0_3.index ⟨(i 0).val / 16, ht⟩ (1 : Fin 3) * 256 ≤ (i 1).val ∧ (i 1).val < win0_3.index ⟨(i 0).val / 16, ht⟩ (1 : Fin 3) * 256 + 256
    omega
  | ⟨2, _⟩ =>
    show win0_3.index ⟨(i 0).val / 16, ht⟩ (2 : Fin 3) * 256 ≤ (i 2).val ∧ (i 2).val < win0_3.index ⟨(i 0).val / 16, ht⟩ (2 : Fin 3) * 256 + 256
    omega

/-- THE FOLDED RE OUTPUT after the run: the scaled folded input, everywhere. -/
theorem finalRe (c : Dev nD) : (dats m 0 c).arrAt 3 cfg0.N = scaled (V m c main_call0_v0) (V m c main_call0_v2) :=
  (dats m 0 c).arrAt_eq_of_cover 3 (scaled (V m c main_call0_v0) (V m c main_call0_v2)) (fun t _ => flushedRe_eq m c t) coverRe

/-- WHAT POINT t WRITES BACK for the Im part is block t of the scaled folded array: the stored value at (r, h, w) of the
    block is x at the block's (r, h, w) times exp(beta(h, w)), the x block sits where the output block sits, and the beta
    tile is the whole (256, 256) array. -/
theorem flushedIm_eq (c : Dev nD) (t : Fin cfg0.N) :
    (dats m 0 c).flushed 4 t = ((cfg0.win 4).blk t).view.read (Elt F) (scaled (V m c main_call0_v1) (V m c main_call0_v2)) := by
  show (cfg0.win 4).cut (grid0.coords t) ((dats m 0 c).after 4 t) = _
  rw [after0_4]
  unfold out0_4
  rw [View.canon_unit_zero hz3]
  simp only [View.ld_unit_zero (S := S16x256x256) hz3, View.ld_unit_zero (S := S256x256) hz2]
  obtain ⟨e00, e01, e02, e10, e11, e12, e20, e21, e30, e31, e32, e40, e41, e42⟩ := idx_facts t
  funext j
  show k0_pay3 (iblk m c 2 t) (iblk m c 1 t) j
    = FloatOps.mulf (V m c main_call0_v1 (((cfg0.win 4).blk t).view.emb j))
        (FloatOps.exp (V m c main_call0_v2 (planeOf (((cfg0.win 4).blk t).view.emb j))))
  refine (storedIm_apply (iblk m c 2 t) (iblk m c 1 t) j).trans ?_
  show FloatOps.mulf (V m c main_call0_v1 (((cfg0.win 1).blk t).view.emb j))
        (FloatOps.exp (V m c main_call0_v2 (((cfg0.win 2).blk t).view.emb (plane j)))) = _
  have hx : ((cfg0.win 1).blk t).view.emb j = ((cfg0.win 4).blk t).view.emb j := by
    funext a; apply Fin.ext
    match a with
    | ⟨0, _⟩ => show win0_1.index t (0 : Fin 3) * 16 + 1 * (j 0).val = win0_4.index t (0 : Fin 3) * 16 + 1 * (j 0).val; omega
    | ⟨1, _⟩ => show win0_1.index t (1 : Fin 3) * 256 + 1 * (j 1).val = win0_4.index t (1 : Fin 3) * 256 + 1 * (j 1).val; omega
    | ⟨2, _⟩ => show win0_1.index t (2 : Fin 3) * 256 + 1 * (j 2).val = win0_4.index t (2 : Fin 3) * 256 + 1 * (j 2).val; omega
  have hb : ((cfg0.win 2).blk t).view.emb (plane j) = planeOf (((cfg0.win 4).blk t).view.emb j) := by
    funext a; apply Fin.ext
    match a with
    | ⟨0, _⟩ => show win0_2.index t (0 : Fin 2) * 256 + 1 * (j 1).val = win0_4.index t (1 : Fin 3) * 256 + 1 * (j 1).val; omega
    | ⟨1, _⟩ => show win0_2.index t (1 : Fin 2) * 256 + 1 * (j 2).val = win0_4.index t (2 : Fin 3) * 256 + 1 * (j 2).val; omega
  rw [hx, hb]

/-- An index of the folded Im output is in point t's block iff each coordinate is in the block's range on its axis. -/
theorem mem_blkIm (t : Fin cfg0.N) (i : S256x256x256.Idx) :
    i ∈ ((cfg0.win 4).blk t).view.set ↔ ∀ a : Fin 3, win0_4.index t a * S16x256x256.size a ≤ (i a).val ∧ (i a).val < win0_4.index t a * S16x256x256.size a + S16x256x256.size a := by
  show i ∈ ((View.whole main_call0_v3_1).slice (win0_4.rect t)).set ↔ _
  rw [View.set_slice_whole, Rect.mem_set_unit]
  exact Iff.rfl

/-- Every index (n, h, w) of the folded Im output lies in the block of point n / 16, and every point writes back. -/
theorem coverIm (i : S256x256x256.Idx) :
    ∃ t : Fin cfg0.N, (cfg0.win 4).flush t = true ∧ i ∈ ((cfg0.win 4).blk t).view.set := by
  have hi0 : (i 0).val < 256 := (i 0).isLt
  have hi1 : (i 1).val < 256 := (i 1).isLt
  have hi2 : (i 2).val < 256 := (i 2).isLt
  have hN : grid0.N = 16 := N_0
  have ht : (i 0).val / 16 < grid0.N := by omega
  obtain ⟨e00, e01, e02, e10, e11, e12, e20, e21, e30, e31, e32, e40, e41, e42⟩ := idx_facts ⟨(i 0).val / 16, ht⟩
  refine ⟨⟨(i 0).val / 16, ht⟩, flush0_4 _, ?_⟩
  rw [mem_blkIm]
  intro a
  match a with
  | ⟨0, _⟩ =>
    show win0_4.index ⟨(i 0).val / 16, ht⟩ (0 : Fin 3) * 16 ≤ (i 0).val ∧ (i 0).val < win0_4.index ⟨(i 0).val / 16, ht⟩ (0 : Fin 3) * 16 + 16
    have hv : (⟨(i 0).val / 16, ht⟩ : Fin grid0.N).val = (i 0).val / 16 := rfl
    omega
  | ⟨1, _⟩ =>
    show win0_4.index ⟨(i 0).val / 16, ht⟩ (1 : Fin 3) * 256 ≤ (i 1).val ∧ (i 1).val < win0_4.index ⟨(i 0).val / 16, ht⟩ (1 : Fin 3) * 256 + 256
    omega
  | ⟨2, _⟩ =>
    show win0_4.index ⟨(i 0).val / 16, ht⟩ (2 : Fin 3) * 256 ≤ (i 2).val ∧ (i 2).val < win0_4.index ⟨(i 0).val / 16, ht⟩ (2 : Fin 3) * 256 + 256
    omega

/-- THE FOLDED IM OUTPUT after the run: the scaled folded input, everywhere. -/
theorem finalIm (c : Dev nD) : (dats m 0 c).arrAt 4 cfg0.N = scaled (V m c main_call0_v1) (V m c main_call0_v2) :=
  (dats m 0 c).arrAt_eq_of_cover 4 (scaled (V m c main_call0_v1) (V m c main_call0_v2)) (fun t _ => flushedIm_eq m c t) coverIm

end Cert.KernelIdeal.Scale

end
-- ==== Proof.Result.lean ====
/-
  The kernel's result as ONE function of its arguments. Around the region the program only re-views arrays: x of shape
  (32, 8, 256, 256) is folded to (256, 256, 256) by merging its two leading axes, beta of length 65536 is viewed as a
  (256, 256) tile, and each folded output is unfolded back to (32, 8, 256, 256). All three keep row-major positions:
  (b, c, h, w) of the unfolded array is (8·b + c, h, w) of the folded one, and (h, w) of the tile is entry 256·h + w of
  beta. So the result at (b, c, h, w) is x(b, c, h, w) · exp(beta(256·h + w)). Stated for every float instance.
-/
import proofs.«155299_j72559177499246_1_alg».proof.Proof.Blocks

noncomputable section

namespace Cert.KernelIdeal.Scale

open Idealize.ShloMosaic Cert.KernelIdeal Cert.KernelIdeal.Gen

variable {F : FTy → Type} [FloatOps F]

/-- Fold, scale, unfold: what the program computes from one part x and beta. -/
abbrev kernelResult (x : S32x8x256x256.Idx → Elt F .f32) (β : S65536.Idx → Elt F .f32) : S32x8x256x256.Idx → Elt F .f32 :=
  shapeCast S32x8x256x256
    (scaled (shapeCast S256x256x256 x shapeCasts_S32x8x256x256_S256x256x256) (shapeCast S256x256 β shapeCasts_S65536_S256x256))
    shapeCasts_S256x256x256_S32x8x256x256

/-- The folded index (8·b + c, h, w) of (b, c, h, w). -/
abbrev foldIdx (i : S32x8x256x256.Idx) : S256x256x256.Idx := fun a => match a with
  | ⟨0, _⟩ => ⟨(i 0).val * 8 + (i 1).val, by
      have h0 : (i 0).val < 32 := (i 0).isLt
      have h1 : (i 1).val < 8 := (i 1).isLt
      show (i 0).val * 8 + (i 1).val < 256
      omega⟩
  | ⟨1, _⟩ => ⟨(i 2).val, (i 2).isLt⟩
  | ⟨2, _⟩ => ⟨(i 3).val, (i 3).isLt⟩

/-- The entry 256·h + w of beta that scales position (b, c, h, w). -/
abbrev betaIdx (i : S32x8x256x256.Idx) : S65536.Idx := fun a => match a with
  | ⟨0, _⟩ => ⟨(i 2).val * 256 + (i 3).val, by
      have h2 : (i 2).val < 256 := (i 2).isLt
      have h3 : (i 3).val < 256 := (i 3).isLt
      show (i 2).val * 256 + (i 3).val < 65536
      omega⟩

/-- The result at (b, c, h, w) is x(b, c, h, w) · exp(beta(256·h + w)). -/
theorem kernelResult_apply (x : S32x8x256x256.Idx → Elt F .f32) (β : S65536.Idx → Elt F .f32) (i : S32x8x256x256.Idx) :
    kernelResult x β i = FloatOps.mulf (x i) (FloatOps.exp (β (betaIdx i))) := by
  have hfold : (S256x256x256.rowMajor (foldIdx i)).val = (S32x8x256x256.rowMajor i).val := by
    rewrite [Shape.rowMajor_val_three, Shape.rowMajor_val_four]
    show (((i 0).val * 8 + (i 1).val) * 256 + (i 2).val) * 256 + (i 3).val
      = (((i 0).val * 8 + (i 1).val) * 256 + (i 2).val) * 256 + (i 3).val
    rfl
  have htile : (S65536.rowMajor (betaIdx i)).val = (S256x256.rowMajor (planeOf (foldIdx i))).val := by
    rewrite [Shape.rowMajor_val_one, Shape.rowMajor_val_two]
    show (i 2).val * 256 + (i 3).val = (i 2).val * 256 + (i 3).val
    rfl
  show shapeCast S32x8x256x256
    (scaled (shapeCast S256x256x256 x shapeCasts_S32x8x256x256_S256x256x256) (shapeCast S256x256 β shapeCasts_S65536_S256x256))
    shapeCasts_S256x256x256_S32x8x256x256 i = _
  rw [shapeCast_apply _ shapeCasts_S256x256x256_S32x8x256x256 i (foldIdx i) hfold]
  show FloatOps.mulf (shapeCast S256x256x256 x shapeCasts_S32x8x256x256_S256x256x256 (foldIdx i))
    (FloatOps.exp (shapeCast S256x256 β shapeCasts_S65536_S256x256 (planeOf (foldIdx i)))) = _
  rw [shapeCast_apply x shapeCasts_S32x8x256x256_S256x256x256 (foldIdx i) i hfold.symm,
    shapeCast_apply β shapeCasts_S65536_S256x256 (planeOf (foldIdx i)) (betaIdx i) htile]

end Cert.KernelIdeal.Scale

end
-- ==== Proof.KernelRun.lean ====
/-
  The program's run, read. Before the region three host lines fold x_real, x_imag and view beta as a tile; the region
  leaves each folded output at the scaled folded input (the blocks-to-arrays step); after the region two host lines
  unfold the outputs. Composed: every weakly fair execution ends with the two results at fold-scale-unfold of
  (x_real, beta) and of (x_imag, beta), and the three arguments as launched.
-/
import proofs.«155299_j72559177499246_1_alg».proof.Proof.Result
import Idealize.ShloMosaic.Lib.StableHlo.Run

set_option maxRecDepth 16384

noncomputable section

namespace Cert.KernelIdeal.Scale

open Idealize.ShloMosaic Idealize.ShloMosaic.TcCoe Idealize.SL.Sem Cert.KernelIdeal Cert.KernelIdeal.Gen
open Idealize.ShloMosaic.StableHlo

variable {F : FTy → Type} [FloatOps F]
variable (m : (ℓ : Loc nD τ sig) → Buf (Elt F) ℓ) (ρ : Dev nD → PrngReg)

/-! ## The arrays the region finds -/

/-- The region finds the folded x_real. -/
theorem foldedRe (c : Dev nD) : (V m c main_call0_v0 : S256x256x256.Idx → Elt F .f32)
    = shapeCast S256x256x256 (m ((c.tc : Thread nD τ).loc main_arg0)) shapeCasts_S32x8x256x256_S256x256x256 := by
  show StableHlo.after hostOps0 (fun b => m (c, b)) (Proc.devRef .tc main_call0_v0) = _
  after_results
  rfl

/-- The region finds the folded x_imag. -/
theorem foldedIm (c : Dev nD) : (V m c main_call0_v1 : S256x256x256.Idx → Elt F .f32)
    = shapeCast S256x256x256 (m ((c.tc : Thread nD τ).loc main_arg1)) shapeCasts_S32x8x256x256_S256x256x256 := by
  show StableHlo.after hostOps0 (fun b => m (c, b)) (Proc.devRef .tc main_call0_v1) = _
  after_results
  rfl

/-- The region finds beta as a (256, 256) tile. -/
theorem tileBeta (c : Dev nD) : (V m c main_call0_v2 : S256x256.Idx → Elt F .f32)
    = shapeCast S256x256 (m ((c.tc : Thread nD τ).loc main_arg2)) shapeCasts_S65536_S256x256 := by
  show StableHlo.after hostOps0 (fun b => m (c, b)) (Proc.devRef .tc main_call0_v2) = _
  after_results
  rfl

/-! ## The results the lines after the region leave -/

/-- The first result is the unfolded real output, which the region left at the scaled folded x_real. -/
theorem resultRe (c : Dev nD) :
    Pipeline.afterTail₀ cfgs (dats m) 0 (V0 m) [hostOps1] c main_v0_0
      = kernelResult (m ((c.tc : Thread nD τ).loc main_arg0)) (m ((c.tc : Thread nD τ).loc main_arg2)) := by
  unfold Pipeline.afterTail₀
  show StableHlo.after hostOps1 _ (Proc.devRef .tc main_v0_0) = _
  after_results
  refine (congrArg (fun A : S256x256x256.Idx → Elt F .f32 => shapeCast S32x8x256x256 A shapeCasts_S256x256x256_S32x8x256x256)
    ((Pipeline.withArrays_arr spec0 launch0.win.arr_inj c _ _ 3).trans (finalRe m c))).trans ?_
  show shapeCast S32x8x256x256 (scaled (V m c main_call0_v0) (V m c main_call0_v2)) shapeCasts_S256x256x256_S32x8x256x256
    = shapeCast S32x8x256x256 (scaled (shapeCast S256x256x256 (m ((c.tc : Thread nD τ).loc main_arg0)) shapeCasts_S32x8x256x256_S256x256x256)
        (shapeCast S256x256 (m ((c.tc : Thread nD τ).loc main_arg2)) shapeCasts_S65536_S256x256)) shapeCasts_S256x256x256_S32x8x256x256
  rw [foldedRe m c, tileBeta m c]

/-- The second result is the unfolded imaginary output, which the region left at the scaled folded x_imag. -/
theorem resultIm (c : Dev nD) :
    Pipeline.afterTail₀ cfgs (dats m) 0 (V0 m) [hostOps1] c main_v0_1
      = kernelResult (m ((c.tc : Thread nD τ).loc main_arg1)) (m ((c.tc : Thread nD τ).loc main_arg2)) := by
  unfold Pipeline.afterTail₀
  show StableHlo.after hostOps1 _ (Proc.devRef .tc main_v0_1) = _
  after_results
  refine (congrArg (fun A : S256x256x256.Idx → Elt F .f32 => shapeCast S32x8x256x256 A shapeCasts_S256x256x256_S32x8x256x256)
    ((Pipeline.withArrays_arr spec0 launch0.win.arr_inj c _ _ 4).trans (finalIm m c))).trans ?_
  show shapeCast S32x8x256x256 (scaled (V m c main_call0_v1) (V m c main_call0_v2)) shapeCasts_S256x256x256_S32x8x256x256
    = shapeCast S32x8x256x256 (scaled (shapeCast S256x256x256 (m ((c.tc : Thread nD τ).loc main_arg1)) shapeCasts_S32x8x256x256_S256x256x256)
        (shapeCast S256x256 (m ((c.tc : Thread nD τ).loc main_arg2)) shapeCasts_S65536_S256x256)) shapeCasts_S256x256x256_S32x8x256x256
  rw [foldedIm m c, tileBeta m c]

/-! ## The run -/

/-- Every weakly fair execution of the program terminates, nothing faulting, with both results at fold-scale-unfold of
    their part and beta, and the arguments unchanged. -/
theorem run : θ_run defs (onTc (τ := τ) (main (F := F))) ⟨m, fun _ => 0, ρ⟩ fun r => ∀ c : Dev nD,
      r.2.mem ((c.tc : Thread nD τ).loc main_v0_0) = kernelResult (m ((c.tc : Thread nD τ).loc main_arg0)) (m ((c.tc : Thread nD τ).loc main_arg2))
      ∧ r.2.mem ((c.tc : Thread nD τ).loc main_v0_1) = kernelResult (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v0_0 (Pipeline.mem_restRefs_of main_v0_0 (by decide) (by decide))).trans (resultRe m c),
     ((h c).2 main_v0_1 (Pipeline.mem_restRefs_of main_v0_1 (by decide) (by decide))).trans (resultIm m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Scale

end
-- ==== Proof.Bridge.lean ====
/-
  The reference computes the same function. On the host, exp is applied to the flat beta first, the result is viewed as a
  (256, 256) tile, given two leading unit axes, spread over (32, 8, 256, 256) and multiplied into x. Read at (b, c, h, w)
  that is x(b, c, h, w) · exp(beta(256·h + w)): the two broadcasts drop b and c, the reshape sends (h, w) to 256·h + w.
  The kernel's result at (b, c, h, w) is the same product, with exp applied after the reshape instead of before it; on
  the extended reals the host's exp and the vector unit's exp are one function, so the two arrays are equal element by
  element. No property of the inputs is used.
-/
import proofs.«155299_j72559177499246_1_alg».proof.Proof.Result
import proofs.«155299_j72559177499246_1_alg».proof.Proof.Gen.ReferenceIdeal.Read
import Idealize.ShloMosaic.PureOps.Ideal

noncomputable section

namespace Cert.ReferenceIdeal.SameScale

open Idealize.ShloMosaic Cert.ReferenceIdeal Cert.ReferenceIdeal.Read
open Cert.KernelIdeal.Scale (kernelResult kernelResult_apply betaIdx)

/-- The reference's first result, as a function of (x_real, beta), is the kernel's. -/
theorem real_eq (x : FVec Ideal S32x8x256x256 .f32) (β : FVec Ideal S65536 .f32) :
    val_main_v4 (F := Ideal) x β = kernelResult (F := Ideal) x β := by
  funext i
  rw [val_main_v4_apply, val_main_v3_apply, val_main_v2_apply, val_main_v1_apply, val_main_v0_apply]
  rw [kernelResult_apply]
  rfl

/-- The reference's second result, as a function of (x_imag, beta), is the kernel's. -/
theorem imag_eq (x : FVec Ideal S32x8x256x256 .f32) (β : FVec Ideal S65536 .f32) :
    val_main_v7 (F := Ideal) x β = kernelResult (F := Ideal) x β := by
  funext i
  rw [val_main_v7_apply, val_main_v6_apply, val_main_v5_apply, val_main_v1_apply, val_main_v0_apply]
  rw [kernelResult_apply]
  rfl

end Cert.ReferenceIdeal.SameScale

end
-- ==== Proof.lean ====
/-
  A per-column scale of a complex array kept as two real arrays: out = x · exp(beta), where x has shape
  (32, 8, 256, 256), beta has 65536 entries, and position (b, c, h, w) is scaled by exp(beta(256·h + w)), the same for the
  real and the imaginary part.

  The kernel folds x to (256, 256, 256) and views beta as a (256, 256) tile; a grid of 16 points each takes 16 folded
  rows of both parts against the whole tile, exponentiates the tile, spreads it over the rows and multiplies; the two
  outputs are unfolded back. The reference exponentiates the flat beta, views it as a tile, spreads it over the two
  leading axes and multiplies. Every step on either side is a re-view that keeps row-major positions, an elementwise
  exp, or an elementwise product, so both results at (b, c, h, w) are x(b, c, h, w) · exp(beta(256·h + w)); on the
  extended reals the host's and the vector unit's exp are one function, and the two programs agree element by element
  for every input (finiteness of the inputs is not used).

  The three frames: the two kernel programs by their generated frame certificates, the reference by its generated run.
  The idealization rewrote nothing, so there is nothing to preserve. The value claim: the kernel's run read through
  the blocks its grid points write back and through the host lines around the region, against the reference's run read
  one operation at a time.
-/
import proofs.«155299_j72559177499246_1_alg».proof.Defs
import proofs.«155299_j72559177499246_1_alg».proof.Proof.Gen.Kernel
import proofs.«155299_j72559177499246_1_alg».proof.Proof.Gen.Kernel.Skeleton
import proofs.«155299_j72559177499246_1_alg».proof.Proof.Gen.Kernel.Launch
import proofs.«155299_j72559177499246_1_alg».proof.Proof.Gen.Kernel.Points
import proofs.«155299_j72559177499246_1_alg».proof.Proof.Gen.Kernel.Frame
import proofs.«155299_j72559177499246_1_alg».proof.Proof.Gen.KernelIdeal
import proofs.«155299_j72559177499246_1_alg».proof.Proof.Gen.KernelIdeal.Skeleton
import proofs.«155299_j72559177499246_1_alg».proof.Proof.Gen.KernelIdeal.Launch
import proofs.«155299_j72559177499246_1_alg».proof.Proof.Gen.KernelIdeal.Points
import proofs.«155299_j72559177499246_1_alg».proof.Proof.Gen.KernelIdeal.Frame
import proofs.«155299_j72559177499246_1_alg».proof.Proof.Gen.ReferenceIdeal
import proofs.«155299_j72559177499246_1_alg».proof.Proof.Gen.Pre_finite_inputs
import proofs.«155299_j72559177499246_1_alg».proof.Proof.Gen.ReferenceIdeal.Run
import proofs.«155299_j72559177499246_1_alg».proof.Proof.Gen.ReferenceIdeal.Read
import Idealize.ShloMosaic.Adequacy
import Idealize.ShloMosaic.Init
import proofs.«155299_j72559177499246_1_alg».proof.Proof.KernelRun
import proofs.«155299_j72559177499246_1_alg».proof.Proof.Bridge

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the real part at x_real · exp(beta) and the imaginary part at x_imag · exp(beta), position by
    position: the kernel's run states its results as fold-scale-unfold of the arguments, and the reference's two result
    terms are that same function of arguments that agree. -/
theorem algebraic : Cert.algebraic_KernelIdeal_ReferenceIdeal := by
  intro m ρ m' ρ' _ hagree
  refine ⟨_, _, Cert.KernelIdeal.Scale.run (F := Ideal) m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [(hagree c).1, (hagree c).2.2]
    exact (Cert.ReferenceIdeal.Read.val_main_v4_eq _ _).trans (Cert.ReferenceIdeal.SameScale.real_eq _ _)
  · rw [(hagree c).2.1, (hagree c).2.2]
    exact (Cert.ReferenceIdeal.Read.val_main_v7_eq _ _).trans (Cert.ReferenceIdeal.SameScale.imag_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
